-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S8 : Shape := ⟨1, ![8]⟩
abbrev S1x8 : Shape := ⟨2, ![1, 8]⟩
abbrev S512x8 : Shape := ⟨2, ![512, 8]⟩
abbrev S1x4096 : Shape := ⟨2, ![1, 4096]⟩
abbrev S16384x4096 : Shape := ⟨2, ![16384, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8, .f32⟩
  | .hbm, ⟨4, _⟩ => ⟨S1x8, .f32⟩
  | .hbm, ⟨5, _⟩ => ⟨S512x8, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S16384x4096, .f32⟩
  | .hbm, ⟨12, _⟩ => ⟨S16384x4096, .bf16⟩
  | .hbm, ⟨13, _⟩ => ⟨S4096x4096, .bf16⟩
  | .hbm, ⟨14, _⟩ => ⟨S1x4096, .f32⟩
  | .hbm, ⟨15, _⟩ => ⟨S16384x4096, .f32⟩
  | .hbm, ⟨16, _⟩ => ⟨S8x2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  shapeCasts_S8x2048x4096_S16384x4096 : S8x2048x4096.ShapeCasts S16384x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .bf16 = 32 ∨ (Rect.block (s := S16384x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S8 : Shape := ⟨1, ![8]⟩
abbrev S1x8 : Shape := ⟨2, ![1, 8]⟩
abbrev S512x8 : Shape := ⟨2, ![512, 8]⟩
abbrev S1x4096 : Shape := ⟨2, ![1, 4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8, .f32⟩
  | .hbm, ⟨4, _⟩ => ⟨S1x8, .f32⟩
  | .hbm, ⟨5, _⟩ => ⟨S512x8, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S8x2048x4096, .f32⟩
  | .hbm, ⟨11, _⟩ => ⟨S1x1x4096, .f32⟩
  | .hbm, ⟨12, _⟩ => ⟨S8x2048x4096, .f32⟩
  | .hbm, ⟨13, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.KPieces.lean ====
/-
  What one run of the kernel body leaves behind, case by case, as a function of what it read.

  The body keeps its accumulator in a scratch block that survives from one grid point to the next. At the first step
  of a reduction it stores the zero block and then the zero block plus that step's block product; at every later step
  it stores what the step before left plus the step's product; at the last step it also stores, into the output
  block, the accumulator it has just written plus the bias row. Each of these is a single whole-block store (or a
  whole-block store over an earlier one), so what is left is the stored value itself.
-/
import proofs.«180338_j56813827392139_1_alg».proof.Proof.Gen.KernelIdeal.Frame
import Idealize.ShloMosaic.Lib.Pipeline.Value
import Idealize.ShloMosaic.Lib.Tactic

noncomputable section

namespace Cert.KernelIdeal.KValue

open Idealize.ShloMosaic Idealize.ShloMosaic.TcCoe Idealize.ShloMosaic.Tactic Idealize.SL.Sem Cert.KernelIdeal Cert.KernelIdeal.Gen

variable {F : FTy → Type} [FloatOps F]

/-- The offsets of a whole-block access are all zero. -/
theorem off_zero : (![0, 0] : Fin 2 → Nat) = fun _ => 0 := by funext a; fin_cases a <;> rfl

/-- First step of a reduction: the scratch ends at the zero block plus the step's product. -/
theorem sout_A (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .bf16) (x1 : Vec F S512x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) off_zero]
  simp only [View.readAt_eq_ld, harg3.read_unread, harg4.read_unread,
    View.readCov_unit_zero (S := S1024x1024) _ off_zero,
    View.ld_unit_zero (S := S1024x512) off_zero, View.ld_unit_zero (S := S512x1024) off_zero]

/-- A middle step: the scratch ends at what the step before left plus the step's product. -/
theorem sout_B (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .bf16) (x1 : Vec F S512x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero off_zero]
  simp only [View.readAt_eq_ld, harg3.read_unread, harg4.read_unread, harg7.read_unread,
    View.ld_unit_zero (S := S1024x1024) off_zero, View.ld_unit_zero (S := S1024x512) off_zero,
    View.ld_unit_zero (S := S512x1024) off_zero]

/-- The last step leaves the scratch as a middle step does. -/
theorem sout_C (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S512x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero off_zero]
  simp only [View.readAt_eq_ld, harg3.read_unread, harg4.read_unread, harg7.read_unread,
    View.ld_unit_zero (S := S1024x1024) off_zero, View.ld_unit_zero (S := S1024x512) off_zero,
    View.ld_unit_zero (S := S512x1024) off_zero]

/-- The last step's output block: the accumulator it has just written, plus the bias row. -/
theorem out_C (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S512x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero off_zero]
  simp only [View.readAt_eq_ld, harg3.read_unread, harg4.read_unread, harg5.read_unread, harg7.read_unread,
    View.readCov_unit_zero (S := S1024x1024) _ off_zero,
    View.ld_unit_zero (S := S1024x1024) off_zero, View.ld_unit_zero (S := S1024x512) off_zero,
    View.ld_unit_zero (S := S512x1024) off_zero, View.ld_unit_zero (S := S1x1024) off_zero]

end Cert.KernelIdeal.KValue

end
-- ==== Proof.KPay.lean ====
/-
  The kernel body's three stored values, read at an index on extended reals.

  The body keeps a 1024 × 1024 accumulator. Its first stored value is the zero block; its second is the accumulator
  plus the product of a 1024 × 512 block with a 512 × 1024 block, the product taken into a zero block, so that entry
  (r, q) gains the sum over j of left[r, j] · right[j, q]; its third adds a one-row block, repeated down the rows, to
  the accumulator. Narrowing an operand to a shorter float format changes nothing on extended reals.
-/
import proofs.«180338_j56813827392139_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx Cert.KernelIdeal Cert.KernelIdeal.Gen

/-! ### The block product's operand indices, coordinate by coordinate

The product contracts the left block's second axis with the right block's first axis: at output entry (r, q) and
shared position k the left operand is read at (r, k) and the right operand at (k, q). -/

/-- The dimension numbers of the block product: left axis 1 against right axis 0. -/
abbrev payDot := dot_S1024x512_S512x1024_S1024x1024_1_0_0_1_n_n

theorem payDot_lhs_0 (j : S1024x1024.Idx) (k : dot_S1024x512_S512x1024_S1024x1024_1_0_0_1_n_n.contr.Idx) :
    (dot_S1024x512_S512x1024_S1024x1024_1_0_0_1_n_n.lhsIdx j k 0 : ℕ) = j 0 := by
  simp [DotDims.lhsIdx, dot_S1024x512_S512x1024_S1024x1024_1_0_0_1_n_n]; rfl
theorem payDot_lhs_1 (j : S1024x1024.Idx) (k : dot_S1024x512_S512x1024_S1024x1024_1_0_0_1_n_n.contr.Idx) :
    (dot_S1024x512_S512x1024_S1024x1024_1_0_0_1_n_n.lhsIdx j k 1 : ℕ) = k ⟨0, by decide⟩ := by
  simp [DotDims.lhsIdx, dot_S1024x512_S512x1024_S1024x1024_1_0_0_1_n_n]; rfl
theorem payDot_rhs_0 (j : S1024x1024.Idx) (k : dot_S1024x512_S512x1024_S1024x1024_1_0_0_1_n_n.contr.Idx) :
    (dot_S1024x512_S512x1024_S1024x1024_1_0_0_1_n_n.rhsIdx j k 0 : ℕ) = k ⟨0, by decide⟩ := by
  simp [DotDims.rhsIdx, dot_S1024x512_S512x1024_S1024x1024_1_0_0_1_n_n]; rfl
theorem payDot_rhs_1 (j : S1024x1024.Idx) (k : dot_S1024x512_S512x1024_S1024x1024_1_0_0_1_n_n.contr.Idx) :
    (dot_S1024x512_S512x1024_S1024x1024_1_0_0_1_n_n.rhsIdx j k 1 : ℕ) = j 1 := by
  simp [DotDims.rhsIdx, dot_S1024x512_S512x1024_S1024x1024_1_0_0_1_n_n]; rfl

/-- The shared positions of the block product are the 512 columns of the left block. -/
abbrev payContr : payDot.contr.Idx ≃ Fin 512 := contrEquiv1 payDot 512 rfl rfl

/-- At entry (r, q) and shared position j the left block is read at (r, j). -/
theorem payDot_lhsIdx (r q : Fin 1024) (j : Fin 512) :
    payDot.lhsIdx (ix2 r q) (payContr.symm j) = ix2 r j := by
  funext a
  match a with
  | ⟨0, _⟩ => exact Fin.ext (payDot_lhs_0 _ _)
  | ⟨1, _⟩ => exact Fin.ext ((payDot_lhs_1 _ _).trans (contrEquiv1_symm_val payDot 512 rfl rfl j))

/-- At entry (r, q) and shared position j the right block is read at (j, q). -/
theorem payDot_rhsIdx (r q : Fin 1024) (j : Fin 512) :
    payDot.rhsIdx (ix2 r q) (payContr.symm j) = ix2 j q := by
  funext a
  match a with
  | ⟨0, _⟩ => exact Fin.ext ((payDot_rhs_0 _ _).trans (contrEquiv1_symm_val payDot 512 rfl rfl j))
  | ⟨1, _⟩ => exact Fin.ext (payDot_rhs_1 _ _)

/-- The block product into the zero block, at entry (r, q): the sum over the 512 shared positions. -/
theorem blockProduct_apply (x0 : FVec Ideal S1024x512 .bf16) (x1 : FVec Ideal S512x1024 .bf16) (r q : Fin 1024) :
    FloatOps.matmul payDot none x0 x1 (constant (F := Ideal) S1024x1024 .f32 0x00000000#32) (ix2 r q)
      = ∑ j : Fin 512, x0 (ix2 r j) * x1 (ix2 j q) := by
  refine (Ideal.matmul_constant_zero_apply payDot none x0 x1 (ix2 r q)).trans ?_
  rw [← Equiv.sum_comp payContr.symm]
  refine Finset.sum_congr rfl fun j _ => ?_
  rw [payDot_lhsIdx, payDot_rhsIdx]

/-- The reset value is zero everywhere. -/
theorem pay1_apply (r q : Fin 1024) : (k0_pay1 (F := Ideal)) (ix2 r q) = 0 := by
  unfold k0_pay1
  simp only [shapeCast_self]
  rw [broadcast_apply]
  exact Ideal.ofBits_zero_f32

/-- The accumulating store: the accumulator's entry plus the block product's entry, a sum over the 512 shared
    positions. -/
theorem pay2_apply (acc : FVec Ideal S1024x1024 .f32) (x0 : FVec Ideal S1024x512 .bf16) (x1 : FVec Ideal S512x1024 .bf16)
    (r q : Fin 1024) :
    k0_pay2 (F := Ideal) acc x0 x1 (ix2 r q) = acc (ix2 r q) + ∑ j : Fin 512, x0 (ix2 r j) * x1 (ix2 j q) := by
  unfold k0_pay2
  simp only [shapeCast_self]
  rw [addf_apply]
  exact congrArg (acc (ix2 r q) + ·) (blockProduct_apply x0 x1 r q)

/-- The closing store: the accumulator's entry plus the one-row block's entry in the same column. -/
theorem pay3_apply (v : FVec Ideal S1024x1024 .f32) (x2 : FVec Ideal S1x1024 .f32) (r q : Fin 1024) :
    k0_pay3 (F := Ideal) v x2 (ix2 r q) = v (ix2 r q) + x2 (ix2 (0 : Fin 1) q) := by
  unfold k0_pay3
  simp only [shapeCast_self]
  rw [addf_apply]
  exact congrArg (v (ix2 r q) + ·) (broadcastTo_1b_ab_apply x2 broadcasts_S1x1024_S1024x1024 r q)

end Cert.KernelIdeal.KValue

end
-- ==== Proof.KBlocks.lean ====
/-
  What the kernel's three input blocks hold at a grid point, in terms of the program's arguments.

  The grid has 16 × 4 × 8 points, point t standing for row block t / 32, column block (t / 8) % 4 and reduction step
  t % 8. Before the region the program flattens x to 16384 rows, multiplies the weights by the mask and transposes
  them, and lays the bias out as one row; narrowing to a shorter float format changes nothing on extended reals. So
  at point t the left block's entry (r, j) is x at row 1024 · (t / 32) + r of the flattened batch and position
  512 · (t % 8) + j; the right block's entry (j, q) is the masked weight of output 1024 · ((t / 8) % 4) + q at that
  position; the bias block's entry in column q is the bias of that output.
-/
import proofs.«180338_j56813827392139_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The three argument arrays on core `c`, each at its literal type. -/
abbrev argX (c : Dev nD) : FVec Ideal S8x2048x4096 .f32 := m ((c : Thread nD τ).loc main_arg0)
abbrev argW (c : Dev nD) : FVec Ideal S4096x4096 .f32 := m ((c : Thread nD τ).loc main_arg1)
abbrev argB (c : Dev nD) : FVec Ideal S4096 .f32 := m ((c : Thread nD τ).loc main_arg2)

/-- The mask array as the program builds it: an eight-entry pattern repeated 512 times along a row, the row repeated
    down 4096 rows. -/
def mask : FVec Ideal S4096x4096 .f32 :=
  broadcastInDim S4096x4096 ![0, 1] bcast_S1x4096_S4096x4096_0_1
    (broadcastInDim S1x4096 ![1] bcast_S4096_S1x4096_1
      (shapeCast S4096
        (broadcastInDim S512x8 ![0, 1] bcast_S1x8_S512x8_0_1
          (shapeCast S1x8 (fun i => FloatOps.ofBits (F := Ideal) .f32 (lit0 (S8.rowMajor i))) shapeCasts_S8_S1x8))
        shapeCasts_S512x8_S4096))

/-! ## Where each window's block sits at a grid point -/

/-- Left window: row block t / 32, reduction block t % 8. -/
theorem idx0 : ∀ t : Fin cfg0.N, win0_0.index t (0 : Fin 2) = t.val / 32 ∧ win0_0.index t (1 : Fin 2) = t.val % 8 :=
  (by decide +kernel : ∀ t : Fin grid0.N, _)
/-- Right window: reduction block t % 8, column block (t / 8) % 4. -/
theorem idx1 : ∀ t : Fin cfg0.N, win0_1.index t (0 : Fin 2) = t.val % 8 ∧ win0_1.index t (1 : Fin 2) = t.val / 8 % 4 :=
  (by decide +kernel : ∀ t : Fin grid0.N, _)
/-- Bias window: the one row, column block (t / 8) % 4. -/
theorem idx2 : ∀ t : Fin cfg0.N, win0_2.index t (0 : Fin 2) = 0 ∧ win0_2.index t (1 : Fin 2) = t.val / 8 % 4 :=
  (by decide +kernel : ∀ t : Fin grid0.N, _)

/-- The left block's entry (r, j) is the flattened, narrowed x at row R = 1024·(t/32) + r, position d = 512·(t%8) + j. -/
theorem blk0 (c : Dev nD) (t : Fin cfg0.N) (r : Fin 1024) (j : Fin 512) (R : Fin 16384) (d : Fin 4096)
    (hR : R.val = 1024 * (t.val / 32) + r.val) (hd : d.val = 512 * (t.val % 8) + j.val) :
    (iblk m c 0 t : FVec Ideal S1024x512 .bf16) (ix2 r j) = (V m c main_v8 : FVec Ideal S16384x4096 .bf16) (ix2 R d) := by
  unfold iblk
  rw [View.read_apply]
  show V m c main_v8 _ = V m c main_v8 _
  congr 1
  funext a
  apply Fin.ext
  match a with
  | ⟨0, _⟩ => show win0_0.index t 0 * 1024 + 1 * r.val = R.val; rw [(idx0 t).1]; omega
  | ⟨1, _⟩ => show win0_0.index t 1 * 512 + 1 * j.val = d.val; rw [(idx0 t).2]; omega

/-- The right block's entry (j, q) is the transposed, narrowed masked weights at (d, o), d = 512·(t%8) + j,
    o = 1024·((t/8)%4) + q. -/
theorem blk1 (c : Dev nD) (t : Fin cfg0.N) (j : Fin 512) (q : Fin 1024) (d o : Fin 4096)
    (hd : d.val = 512 * (t.val % 8) + j.val) (ho : o.val = 1024 * (t.val / 8 % 4) + q.val) :
    (iblk m c 1 t : FVec Ideal S512x1024 .bf16) (ix2 j q) = (V m c main_v9 : FVec Ideal S4096x4096 .bf16) (ix2 d o) := by
  unfold iblk
  rw [View.read_apply]
  show V m c main_v9 _ = V m c main_v9 _
  congr 1
  funext a
  apply Fin.ext
  match a with
  | ⟨0, _⟩ => show win0_1.index t 0 * 512 + 1 * j.val = d.val; rw [(idx1 t).1]; omega
  | ⟨1, _⟩ => show win0_1.index t 1 * 1024 + 1 * q.val = o.val; rw [(idx1 t).2]; omega

/-- The bias block's entry (u, q) is the one-row bias at (u, o), o = 1024·((t/8)%4) + q. -/
theorem blk2 (c : Dev nD) (t : Fin cfg0.N) (u : Fin 1) (q : Fin 1024) (o : Fin 4096)
    (ho : o.val = 1024 * (t.val / 8 % 4) + q.val) :
    (iblk m c 2 t : FVec Ideal S1x1024 .f32) (ix2 u q) = (V m c main_v10 : FVec Ideal S1x4096 .f32) (ix2 u o) := by
  unfold iblk
  rw [View.read_apply]
  show V m c main_v10 _ = V m c main_v10 _
  congr 1
  funext a
  apply Fin.ext
  match a with
  | ⟨0, _⟩ => show win0_2.index t 0 * 1 + 1 * u.val = u.val; rw [(idx2 t).1]; omega
  | ⟨1, _⟩ => show win0_2.index t 1 * 1024 + 1 * q.val = o.val; rw [(idx2 t).2]; omega

/-! ## What the program's operations before the region leave in the three arrays -/

/-- The left array: x flattened to 16384 rows, then narrowed. -/
theorem v8_eq (c : Dev nD) : (V m c main_v8 : FVec Ideal S16384x4096 .bf16)
    = truncf .bf16 (fun i => shapeCast S16384x4096 (argX m c) shapeCasts_S8x2048x4096_S16384x4096 i) bitsLt_bf16_f32 := by
  show StableHlo.after hostOps0 (fun b => m (c, b)) (Proc.devRef .tc main_v8) = _
  after_results
  rfl

/-- The right array: the weights times the mask, transposed, then narrowed. -/
theorem v9_eq (c : Dev nD) : (V m c main_v9 : FVec Ideal S4096x4096 .bf16)
    = truncf .bf16 (transpose S4096x4096 [1, 0] (mulf (argW m c) mask) transposes_S4096x4096_S4096x4096_1_0) bitsLt_bf16_f32 := by
  show StableHlo.after hostOps0 (fun b => m (c, b)) (Proc.devRef .tc main_v9) = _
  after_results
  rfl

/-- The bias array: the bias laid out as one row. -/
theorem v10_eq (c : Dev nD) : (V m c main_v10 : FVec Ideal S1x4096 .f32)
    = fun i => shapeCast S1x4096 (argB m c) shapeCasts_S4096_S1x4096 i := by
  show StableHlo.after hostOps0 (fun b => m (c, b)) (Proc.devRef .tc main_v10) = _
  after_results
  rfl

/-- The flattened x at row R = 2048·b + s, position d, is x at (b, s, d). -/
theorem v8_apply (c : Dev nD) (R : Fin 16384) (b : Fin 8) (s : Fin 2048) (d : Fin 4096) (hR : R.val = 2048 * b.val + s.val) :
    (V m c main_v8 : FVec Ideal S16384x4096 .bf16) (ix2 R d) = argX m c (ix3 b s d) := by
  rw [v8_eq, truncf_apply]
  refine shapeCast_apply (argX m c) shapeCasts_S8x2048x4096_S16384x4096 (ix2 R d) (ix3 b s d) ?_
  rw [Shape.rowMajor_val_three, Shape.rowMajor_val_two]
  show (b.val * 2048 + s.val) * 4096 + d.val = R.val * 4096 + d.val
  rw [hR, Nat.mul_comm 2048 b.val]

/-- The right array at (d, o) is the masked weight of output o at position d. -/
theorem v9_apply (c : Dev nD) (d o : Fin 4096) :
    (V m c main_v9 : FVec Ideal S4096x4096 .bf16) (ix2 d o) = argW m c (ix2 o d) * mask (ix2 o d) := by
  rw [v9_eq, truncf_apply,
    transpose_apply [1, 0] (mulf (argW m c) mask) transposes_S4096x4096_S4096x4096_1_0 (ix2 d o) (ix2 o d)
      (fun a => match a with | ⟨0, _⟩ => rfl | ⟨1, _⟩ => rfl),
    mulf_apply]

/-- The bias array at (u, o) is the bias of output o. -/
theorem v10_apply (c : Dev nD) (u : Fin 1) (o : Fin 4096) :
    (V m c main_v10 : FVec Ideal S1x4096 .f32) (ix2 u o) = argB m c (ix1 o) := by
  rw [v10_eq]
  exact shapeCast_a_1a_apply (argB m c) shapeCasts_S4096_S1x4096 u o

/-- The left block at point `t`, entry (r, j): x at batch row (b, s) and position d, where 2048·b + s is the
    flattened row 1024·(t/32) + r and d = 512·(t%8) + j. -/
theorem x0_apply (c : Dev nD) (t : Fin cfg0.N) (r : Fin 1024) (j : Fin 512) (b : Fin 8) (s : Fin 2048) (d : Fin 4096)
    (hrow : 2048 * b.val + s.val = 1024 * (t.val / 32) + r.val) (hd : d.val = 512 * (t.val % 8) + j.val) :
    (iblk m c 0 t : FVec Ideal S1024x512 .bf16) (ix2 r j)
      = argX m c (ix3 b s d) := by
  have hb := b.isLt
  have hs := s.isLt
  rw [blk0 m c t r j ⟨2048 * b.val + s.val, by omega⟩ d hrow hd]
  exact v8_apply m c _ b s d rfl

/-- The right block at point `t`, entry (j, q): the masked weight of output o at position d, where
    d = 512·(t%8) + j and o = 1024·((t/8)%4) + q. -/
theorem x1_apply (c : Dev nD) (t : Fin cfg0.N) (j : Fin 512) (q : Fin 1024) (o d : Fin 4096)
    (hd : d.val = 512 * (t.val % 8) + j.val) (ho : o.val = 1024 * (t.val / 8 % 4) + q.val) :
    (iblk m c 1 t : FVec Ideal S512x1024 .bf16) (ix2 j q)
      = argW m c (ix2 o d) * mask (ix2 o d) := by
  rw [blk1 m c t j q d o hd ho]
  exact v9_apply m c d o

/-- The bias block at point `t`, column q: the bias of output o = 1024·((t/8)%4) + q. -/
theorem x2_apply (c : Dev nD) (t : Fin cfg0.N) (u : Fin 1) (q : Fin 1024) (o : Fin 4096)
    (ho : o.val = 1024 * (t.val / 8 % 4) + q.val) :
    (iblk m c 2 t : FVec Ideal S1x1024 .f32) (ix2 u q)
      = argB m c (ix1 o) := by
  rw [blk2 m c t u q o ho]
  exact v10_apply m c u o

end Cert.KernelIdeal.KValue

end
-- ==== Proof.Spec.lean ====
/-
  The function both programs compute, index by index, on extended reals.

  A batch of row vectors x[b, s, ·] of length 4096 is mapped through a 4096 × 4096 weight matrix whose entries are
  first multiplied by a mask array of the same shape, and a bias vector is added: entry (b, s, o) of the result is
  the sum over d of x[b, s, d] · (w[o, d] · mask[o, d]), plus bias[o]. The mask enters only as an array: nothing
  here depends on what it holds.
-/
import Idealize.ShloMosaic.PureOps.Ideal
import Idealize.ShloMosaic.Lib.ValueIdx

noncomputable section

namespace Cert.Spec

open Idealize.ShloMosaic Idealize.ShloMosaic.ValueIdx

abbrev SX : Shape := ⟨3, ![8, 2048, 4096]⟩
abbrev SW : Shape := ⟨2, ![4096, 4096]⟩
abbrev SB : Shape := ⟨1, ![4096]⟩

/-- Entry (b, s, o) of the masked linear map: the inner product of row x[b, s, ·] with row o of the masked
    weights, plus the bias at o. -/
def linAt (x : FVec Ideal SX .f32) (w mk : FVec Ideal SW .f32) (bias : FVec Ideal SB .f32)
    (b : Fin 8) (s : Fin 2048) (o : Fin 4096) : Ideal .f32 :=
  (∑ d : Fin 4096, x (ix3 b s d) * (w (ix2 o d) * mk (ix2 o d))) + bias (ix1 o)

/-- The whole result array. -/
def lin (x : FVec Ideal SX .f32) (w mk : FVec Ideal SW .f32) (bias : FVec Ideal SB .f32) : FVec Ideal SX .f32 :=
  fun i => linAt x w mk bias (i (0 : Fin 3)) (i (1 : Fin 3)) (i (2 : Fin 3))

theorem lin_apply (x : FVec Ideal SX .f32) (w mk : FVec Ideal SW .f32) (bias : FVec Ideal SB .f32)
    (b : Fin 8) (s : Fin 2048) (o : Fin 4096) :
    lin x w mk bias (ix3 b s o) = linAt x w mk bias b s o := rfl

end Cert.Spec

end
-- ==== Proof.Algebra.lean ====
/-
  A sum cut into consecutive blocks.

  A sum over the first K · n naturals is the sum, over n blocks, of the sums over the K naturals of each block. This is
  regrouping only, so it holds in every commutative additive monoid: on extended reals no term need be finite.
-/
import Mathlib.Algebra.BigOperators.Fin

namespace Cert.Algebra

variable {M : Type*} [AddCommMonoid M]

/-- Block by block: `n` blocks of `K` consecutive terms make up the first `K * n` terms. -/
theorem sum_blocks_range (K : ℕ) (g : ℕ → M) :
    ∀ n : ℕ, ∑ s ∈ Finset.range n, ∑ j ∈ Finset.range K, g (K * s + j) = ∑ d ∈ Finset.range (K * n), g d
  | 0 => by simp
  | n + 1 => by
    rw [Finset.sum_range_succ, sum_blocks_range K g n, Nat.mul_succ, Finset.sum_range_add]

/-- The same with the inner and the whole sum taken over `Fin`. -/
theorem sum_blocks (K n : ℕ) (g : ℕ → M) :
    ∑ s ∈ Finset.range n, ∑ j : Fin K, g (K * s + j.val) = ∑ d : Fin (K * n), g d.val := by
  rw [Fin.sum_univ_eq_sum_range g (K * n), ← sum_blocks_range K g n]
  exact Finset.sum_congr rfl fun s _ => Fin.sum_univ_eq_sum_range (fun j => g (K * s + j)) K

end Cert.Algebra
-- ==== Proof.KFold.lean ====
/-
  The accumulator, and the block the kernel writes out, as sums over the argument arrays.

  Within one reduction (eight consecutive grid points) the scratch block after step k holds, at (r, q), zero plus the
  sum over the steps 0 … k of that step's block product at (r, q); this is an induction on k, the first step
  resetting and each later step adding. At the last step the output block is that accumulator plus the bias row.
  Written over the argument arrays, step s's product at (r, q) is the sum over j < 512 of
  x[row, 512·s + j] · (w[o, 512·s + j] · mask[o, 512·s + j]); the eight steps' sums regroup into the one sum over
  d < 4096, which is regrouping only and needs no finiteness.
-/
import proofs.«180338_j56813827392139_1_alg».proof.Proof.KPieces
import proofs.«180338_j56813827392139_1_alg».proof.Proof.KPay
import proofs.«180338_j56813827392139_1_alg».proof.Proof.KBlocks
import proofs.«180338_j56813827392139_1_alg».proof.Proof.Spec
import proofs.«180338_j56813827392139_1_alg».proof.Proof.Algebra

noncomputable section

namespace Cert.KernelIdeal.KValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The three input blocks at a grid point, each at its literal type. -/
abbrev blkL (c : Dev nD) (t : Fin cfg0.N) : FVec Ideal S1024x512 .bf16 := iblk m c 0 t
abbrev blkR (c : Dev nD) (t : Fin cfg0.N) : FVec Ideal S512x1024 .bf16 := iblk m c 1 t
abbrev blkB (c : Dev nD) (t : Fin cfg0.N) : FVec Ideal S1x1024 .f32 := iblk m c 2 t

/-- The scratch block after grid point `t`. -/
abbrev scr (c : Dev nD) (t : Fin cfg0.N) : FVec Ideal S1024x1024 .f32 := (outsAt0 m c t.val t.isLt).2

/-- The grid has 512 points. -/
theorem N_eq : cfg0.N = 512 := N_0

/-- The point before `t`. -/
abbrev prev (t : Fin cfg0.N) : Fin cfg0.N := ⟨t.val - 1, Nat.lt_of_le_of_lt (Nat.sub_le _ _) t.isLt⟩

/-- At the first step of a reduction the scratch is reset: the zero block plus the step's product. -/
theorem scr_reset (c : Dev nD) (t : Fin cfg0.N) (h0 : t.val % 8 = 0) :
    scr m c t = k0_pay2 (F := Ideal) (k0_pay1 (F := Ideal)) (iblk m c 0 t) (iblk m c 1 t) := by
  have h1 : ¬t.val % 8 = 7 := by omega
  unfold scr
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At every later step the scratch is what the step before left plus the step's product. -/
theorem scr_step (c : Dev nD) (t : Fin cfg0.N) (h0 : ¬t.val % 8 = 0) :
    scr m c t = k0_pay2 (F := Ideal) (scr m c (prev t)) (iblk m c 0 t) (iblk m c 1 t) := by
  unfold scr
  by_cases h1 : t.val % 8 = 7
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At the last step the output block is the accumulator just written plus the bias row. -/
theorem out_last (c : Dev nD) (t : Fin cfg0.N) (h7 : t.val % 8 = 7) :
    (outsAt0 m c t.val t.isLt).1 = k0_pay3 (F := Ideal) (scr m c t) (iblk m c 2 t) := by
  have h0 : ¬t.val % 8 = 0 := by omega
  unfold scr
  rw [outsAt0_C m c t h0 h7]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2).trans
    (congrArg (fun v => k0_pay3 (F := Ideal) v (iblk m c 2 t))
      (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
        (iblk m c 0 t) (iblk m c 1 t) (iblk m c 2 t) (outsAt0 m c (t.val - 1) (Nat.lt_of_le_of_lt (Nat.sub_le _ _) t.isLt)).2).symm)

/-- The block product of grid point `n` at (r, q): zero past the grid, where it is never read. -/
def prodAt (c : Dev nD) (n : ℕ) (r q : Fin 1024) : Ideal .f32 :=
  if h : n < cfg0.N then ∑ j : Fin 512, blkL m c ⟨n, h⟩ (ix2 r j) * blkR m c ⟨n, h⟩ (ix2 j q) else 0

theorem prodAt_of_lt (c : Dev nD) (t : Fin cfg0.N) (r q : Fin 1024) :
    prodAt m c t.val r q = ∑ j : Fin 512, blkL m c t (ix2 r j) * blkR m c t (ix2 j q) := by
  unfold prodAt
  rw [dif_pos t.isLt]

/-- THE FOLD. After step `k` of its reduction the scratch holds, at (r, q), zero plus the products of the steps
    0 … k of that reduction. -/
theorem scr_apply (c : Dev nD) (r q : Fin 1024) :
    ∀ (k : ℕ) (t : Fin cfg0.N), t.val % 8 = k →
      scr m c t (ix2 r q) = 0 + ∑ s ∈ Finset.range (k + 1), prodAt m c (8 * (t.val / 8) + s) r q
  | 0, t, hk => by
    rw [scr_reset m c t hk, pay2_apply, pay1_apply, Finset.sum_range_one]
    have e : 8 * (t.val / 8) + 0 = t.val := by omega
    rw [e, prodAt_of_lt]
  | k + 1, t, hk => by
    have h0 : ¬t.val % 8 = 0 := by omega
    have hp : (prev t).val % 8 = k := by show (t.val - 1) % 8 = k; omega
    have hq : (prev t).val / 8 = t.val / 8 := by show (t.val - 1) / 8 = t.val / 8; omega
    rw [scr_step m c t h0, pay2_apply, scr_apply c r q k (prev t) hp, hq, Finset.sum_range_succ _ (k + 1), add_assoc]
    have e : 8 * (t.val / 8) + (k + 1) = t.val := by omega
    rw [e, prodAt_of_lt]

/-- One term of the inner product over the argument arrays: zero past position 4095, where it is never read. -/
def term (c : Dev nD) (b : Fin 8) (s : Fin 2048) (o : Fin 4096) (d : ℕ) : Ideal .f32 :=
  if h : d < 4096 then argX m c (ix3 b s ⟨d, h⟩) * (argW m c (ix2 o ⟨d, h⟩) * mask (ix2 o ⟨d, h⟩)) else 0

/-- Step `k` of the reduction that grid point `t` belongs to, over the argument arrays: at (r, q) its block product
    is the sum of the terms at positions 512·k … 512·k + 511 of flattened row 1024·(t/32) + r and output
    1024·((t/8)%4) + q. -/
theorem prodAt_args (c : Dev nD) (t : Fin cfg0.N) (r q : Fin 1024) (b : Fin 8) (s : Fin 2048) (o : Fin 4096)
    (hrow : 2048 * b.val + s.val = 1024 * (t.val / 32) + r.val) (ho : o.val = 1024 * (t.val / 8 % 4) + q.val)
    (k : ℕ) (hk : k < 8) :
    prodAt m c (8 * (t.val / 8) + k) r q = ∑ j : Fin 512, term m c b s o (512 * k + j.val) := by
  have hN : t.val < 512 := lt_of_lt_of_eq t.isLt N_eq
  have hn : 8 * (t.val / 8) + k < cfg0.N := lt_of_lt_of_eq (by omega : 8 * (t.val / 8) + k < 512) N_eq.symm
  have e := prodAt_of_lt m c ⟨8 * (t.val / 8) + k, hn⟩ r q
  rw [show (⟨8 * (t.val / 8) + k, hn⟩ : Fin cfg0.N).val = 8 * (t.val / 8) + k from rfl] at e
  rw [e]
  refine Finset.sum_congr rfl fun j _ => ?_
  have hj : j.val < 512 := j.isLt
  have hd : 512 * k + j.val < 4096 := by omega
  unfold term
  rw [dif_pos hd]
  exact congrArg₂ (fun a b : EReal => a * b)
    (x0_apply m c ⟨8 * (t.val / 8) + k, hn⟩ r j b s ⟨512 * k + j.val, hd⟩
      (by show 2048 * b.val + s.val = 1024 * ((8 * (t.val / 8) + k) / 32) + r.val; omega)
      (by show 512 * k + j.val = 512 * ((8 * (t.val / 8) + k) % 8) + j.val; omega))
    (x1_apply m c ⟨8 * (t.val / 8) + k, hn⟩ j q o ⟨512 * k + j.val, hd⟩
      (by show 512 * k + j.val = 512 * ((8 * (t.val / 8) + k) % 8) + j.val; omega)
      (by show o.val = 1024 * ((8 * (t.val / 8) + k) / 8 % 4) + q.val; omega))

/-- THE OUTPUT BLOCK. At the last step of a reduction the block written out holds, at (r, q), the masked linear
    map's entry for flattened row 1024·(t/32) + r and output 1024·((t/8)%4) + q. -/
theorem out_apply (c : Dev nD) (t : Fin cfg0.N) (h7 : t.val % 8 = 7) (r q : Fin 1024) (b : Fin 8) (s : Fin 2048) (o : Fin 4096)
    (hrow : 2048 * b.val + s.val = 1024 * (t.val / 32) + r.val) (ho : o.val = 1024 * (t.val / 8 % 4) + q.val) :
    ((outsAt0 m c t.val t.isLt).1 : FVec Ideal S1024x1024 .f32) (ix2 r q)
      = Cert.Spec.linAt (argX m c) (argW m c) mask (argB m c) b s o := by
  rw [out_last m c t h7, pay3_apply, scr_apply m c r q 7 t h7, x2_apply m c t 0 q o ho]
  unfold Cert.Spec.linAt
  rw [zero_add]
  congr 1
  rw [Finset.sum_congr rfl (fun k hk => prodAt_args m c t r q b s o hrow ho k (Finset.mem_range.mp hk)),
    Cert.Algebra.sum_blocks 512 8 (term m c b s o)]
  show (∑ d : Fin 4096, term m c b s o d.val) = _
  refine Finset.sum_congr rfl fun d _ => ?_
  unfold term
  rw [dif_pos d.isLt]

end Cert.KernelIdeal.KValue

end
-- ==== Proof.KArray.lean ====
/-
  From the blocks written out to the whole output array.

  The output array has 16384 rows and 4096 columns, tiled by 1024 × 1024 blocks. Block (i, j) is written once, at the
  last step of its reduction, grid point ((4·i + j)·8 + 7). What is written there is, entry by entry, the masked linear
  map's value for that row and column, so every block is the restriction of one function of the array index; and every
  array index lies in the block of exactly the point named above, so the blocks cover the array. Hence the array ends
  holding that function.
-/
import proofs.«180338_j56813827392139_1_alg».proof.Proof.KFold
import Idealize.ShloMosaic.Lib.Pipeline.Value

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The output window's block index at grid point `t`: row block t / 32, column block (t / 8) % 4. -/
theorem idx3 : ∀ t : Fin cfg0.N, win0_3.index t (0 : Fin 2) = t.val / 32 ∧ win0_3.index t (1 : Fin 2) = t.val / 8 % 4 :=
  (by decide +kernel : ∀ t : Fin grid0.N, win0_3.index t (0 : Fin 2) = t.val / 32 ∧ win0_3.index t (1 : Fin 2) = t.val / 8 % 4)

/-- The flattened output: row R = 2048·b + s of the batch, column o. -/
def outArr (c : Dev nD) : FVec Ideal S16384x4096 .f32 := fun y =>
  Cert.Spec.linAt (argX m c) (argW m c) mask (argB m c)
    ⟨(y (0 : Fin 2)).val / 2048, by have h : (y (0 : Fin 2)).val < 16384 := (y (0 : Fin 2)).isLt; omega⟩
    ⟨(y (0 : Fin 2)).val % 2048, Nat.mod_lt _ (by decide)⟩
    ⟨(y (1 : Fin 2)).val, (y (1 : Fin 2)).isLt⟩

/-- What a writing point writes back is its block of the flattened output. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  obtain ⟨e0, e1⟩ := idx3 t
  show (cfg0.win 3).cut (grid0.coords t) ((dats m 0 c).after 3 t) = _
  rw [after0_3]
  funext y
  obtain ⟨r, q, rfl⟩ : ∃ (r : Fin 1024) (q : Fin 1024), y = ix2 r q := ⟨y 0, y 1, eq_ix2 y⟩
  rw [View.read_apply]
  have hr : r.val < 1024 := r.isLt
  have hq : q.val < 1024 := q.isLt
  have hE0 : ((((cfg0.win 3).blk t).view.emb (ix2 r q)) (0 : Fin 2)).val = win0_3.index t (0 : Fin 2) * 1024 + 1 * r.val := rfl
  have hE1 : ((((cfg0.win 3).blk t).view.emb (ix2 r q)) (1 : Fin 2)).val = win0_3.index t (1 : Fin 2) * 1024 + 1 * q.val := rfl
  unfold outArr
  exact out_apply m c t h7 r q _ _ _
    (by show 2048 * (_ / 2048) + _ % 2048 = _; rw [hE0, e0]; omega)
    (by show _ = 1024 * (t.val / 8 % 4) + q.val; rw [hE1, e1]; omega)

/-- An array index is in point `t`'s block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v11).slice (win0_3.rect t)).set ↔ _
  rw [View.set_slice_whole, Rect.mem_set_unit]
  exact Iff.rfl

/-- The arithmetic of the covering point. -/
theorem cover_arith (i0 i1 : ℕ) (h0 : i0 < 16384) (h1 : i1 < 4096) :
    (i0 / 1024 * 4 + i1 / 1024) * 8 + 7 < 512 ∧ ((i0 / 1024 * 4 + i1 / 1024) * 8 + 7) % 8 = 7
      ∧ ((i0 / 1024 * 4 + i1 / 1024) * 8 + 7) / 32 = i0 / 1024 ∧ ((i0 / 1024 * 4 + i1 / 1024) * 8 + 7) / 8 % 4 = i1 / 1024 := by
  omega

/-- Every array index lies in the block of a writing point: the last step of the reduction of its row and column
    block. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨a0, a1, a2, a3⟩ := cover_arith (i 0).val (i 1).val hi0 hi1
  let t : Fin cfg0.N := ⟨((i 0).val / 1024 * 4 + (i 1).val / 1024) * 8 + 7, lt_of_lt_of_eq a0 N_eq.symm⟩
  have ht : t.val = ((i 0).val / 1024 * 4 + (i 1).val / 1024) * 8 + 7 := rfl
  obtain ⟨e0, e1⟩ := idx3 t
  refine ⟨t, (flush0_3 t).mpr (by rw [ht]; exact a1), ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht, a2]; omega
  | ⟨1, _⟩ =>
    show win0_3.index t (1 : Fin 2) * 1024 ≤ (i 1).val ∧ (i 1).val < win0_3.index t (1 : Fin 2) * 1024 + 1024
    rw [e1, ht, a3]; omega

/-- THE ARRAY after the region: the flattened output. -/
theorem final (c : Dev nD) : (dats m 0 c).arrAt 3 cfg0.N = outArr m c :=
  (dats m 0 c).arrAt_eq_of_cover 3 (outArr m c) (fun t hf => flushed_eq m c t hf) cover

end Cert.KernelIdeal.KValue

end
-- ==== Proof.KRun.lean ====
/-
  The kernel program's run, with its result as the masked linear map of the arguments.

  After the region the program reshapes the 16384 × 4096 output to 8 × 2048 × 4096: entry (b, s, o) of the result is
  entry (2048·b + s, o) of the flattened output, which is the masked linear map's entry (b, s, o). The arguments are
  written by no operation, so they end as they began.
-/
import proofs.«180338_j56813827392139_1_alg».proof.Proof.KArray
import Idealize.ShloMosaic.Lib.StableHlo.Run

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The flattened output reshaped to the batch is the masked linear map. -/
theorem reshape_outArr (c : Dev nD) :
    shapeCast S8x2048x4096 (outArr m c) shapeCasts_S16384x4096_S8x2048x4096
      = Cert.Spec.lin (argX m c) (argW m c) mask (argB m c) := by
  funext i
  obtain ⟨b, s, o, rfl⟩ : ∃ (b : Fin 8) (s : Fin 2048) (o : Fin 4096), i = ix3 b s o := ⟨i 0, i 1, i 2, eq_ix3 i⟩
  have hb : b.val < 8 := b.isLt
  have hs : s.val < 2048 := s.isLt
  have hR : 2048 * b.val + s.val < 16384 := by omega
  rw [shapeCast_apply (outArr m c) shapeCasts_S16384x4096_S8x2048x4096 (ix3 b s o) (ix2 ⟨2048 * b.val + s.val, hR⟩ o)
    (by rw [Shape.rowMajor_val_two, Shape.rowMajor_val_three]
        show (2048 * b.val + s.val) * 4096 + o.val = (b.val * 2048 + s.val) * 4096 + o.val
        omega)]
  rw [Cert.Spec.lin_apply]
  unfold outArr
  show Cert.Spec.linAt _ _ _ _ ⟨(2048 * b.val + s.val) / 2048, _⟩ ⟨(2048 * b.val + s.val) % 2048, _⟩ ⟨o.val, _⟩ = _
  congr 1
  · exact Fin.ext (by show (2048 * b.val + s.val) / 2048 = b.val; omega)
  · exact Fin.ext (by show (2048 * b.val + s.val) % 2048 = s.val; omega)

/-- What the program's last operation leaves in the result buffer. -/
theorem tail_eq (c : Dev nD) :
    Pipeline.afterTail₀ cfgs (dats m) 0 (V0 m) [hostOps1] c main_v12
      = Cert.Spec.lin (argX m c) (argW m c) mask (argB m c) := by
  unfold Pipeline.afterTail₀
  show StableHlo.after hostOps1 _ (Proc.devRef .tc main_v12) = _
  after_results
  rw [show (Pipeline.withArrays (cfgs 0).spec c (V0 m c) fun w => (dats m 0 c).arrAt w (cfgs 0).N) (Proc.devRef .tc main_v11)
      = outArr m c from (Pipeline.withArrays_arr spec0 launch0.win.arr_inj c _ _ 3).trans (final m c)]
  exact reshape_outArr m c

/-- Every weakly fair execution of the kernel program ends with its result at the masked linear map of the
    arguments and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = Cert.Spec.lin (m ((c.tc : Thread nD τ).loc main_arg0)) (m ((c.tc : Thread nD τ).loc main_arg1)) mask
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.LibLayout.lean ====
/-
  Layout facts used by both kernels of this certificate, over arbitrary extents.

  A vector of per-channel coefficients meets a batch of matrices in two ways. The kernels cast the vector to a shape with
  leading unit axes and broadcast it down those axes; the reference broadcasts the vector along its own (last) axis in two
  steps. Read at an index, all of them pick the coefficient of the index's last coordinate. The lemmas here read each such
  cast or broadcast at an index written by coordinates, state the two-dimensional pair as one equation of arrays, and note
  that a matrix product whose operands were narrowed to bf16 and accumulated into zeros is, on extended reals, the plain
  contraction of the un-narrowed operands.
-/
import Idealize.ShloMosaic.Lib.ValueLayout
import Idealize.ShloMosaic.Lib.KernelVsHost

namespace Idealize.ShloMosaic.ValueIdx

open Idealize.ShloMosaic

variable {α : Type}

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, b]` matrix cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, 1, c]` array broadcast to `[a, b, c]` reads, at `(i, j, k)`, its one fibre at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector broadcast along axis 1 of `[1, n]` reads, at `(u, t)`, the vector at `t`. -/
theorem broadcastInDim_a_1a_apply {n : ℕ} (hd : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] hd x (ix2 u t) = x (ix1 t) := by
  refine broadcastInDim_apply ![1] hd x (ix2 u t) (ix1 t) fun ax => ?_
  match ax with
  | ⟨0, _⟩ =>
    show t.val = if n = 1 then 0 else t.val
    split
    · have := t.isLt; omega
    · rfl

/-- A vector of `n` entries laid along each of `m` rows, two spellings: the cast to one row broadcast down the rows,
    and the broadcast along axis 1 of a one-row matrix broadcast again down the rows. -/
theorem broadcastTo_row_eq_broadcastInDim_twice {m n : ℕ} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd : (⟨1, ![n]⟩ : Shape).BroadcastsInDim ⟨2, ![1, n]⟩ ![1])
    (hbc : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hbc (broadcastInDim ⟨2, ![1, n]⟩ ![1] hd x) := by
  funext i
  obtain ⟨r, t, rfl⟩ : ∃ (r : Fin m) (t : Fin n), i = ix2 r t := ⟨i 0, i 1, eq_ix2 i⟩
  rw [broadcastTo_1b_ab_apply, shapeCast_a_1a_apply, broadcastInDim_oneRow_apply, broadcastInDim_a_1a_apply]

/-- A vector broadcast along the last axis of `[1, 1, n]` reads, at `(u, v, t)`, the vector at `t`. -/
theorem broadcastInDim_a_11a_apply {n : ℕ} (hd : (⟨1, ![n]⟩ : Shape).BroadcastsInDim ⟨3, ![1, 1, n]⟩ ![2])
    (x : (⟨1, ![n]⟩ : Shape).Idx → α) (u v : Fin 1) (t : Fin n) :
    broadcastInDim ⟨3, ![1, 1, n]⟩ ![2] hd x (ix3 u v t) = x (ix1 t) := by
  refine broadcastInDim_apply ![2] hd x (ix3 u v t) (ix1 t) fun ax => ?_
  match ax with
  | ⟨0, _⟩ =>
    show t.val = if n = 1 then 0 else t.val
    split
    · have := t.isLt; omega
    · rfl

/-- A `[1, 1, c]` array broadcast in place to `[a, b, c]` reads, at `(i, j, k)`, its one fibre at `k`. -/
theorem broadcastInDim_11c_abc_apply {a b c : ℕ} (h : (⟨3, ![1, 1, c]⟩ : Shape).BroadcastsInDim ⟨3, ![a, b, c]⟩ ![0, 1, 2])
    (y : (⟨3, ![1, 1, c]⟩ : Shape).Idx → α) (i : Fin a) (j : Fin b) (k : Fin c) :
    broadcastInDim ⟨3, ![a, b, c]⟩ ![0, 1, 2] h y (ix3 i j k) = y (ix3 (0 : Fin 1) (0 : Fin 1) k) := by
  refine broadcastInDim_apply ![0, 1, 2] h y (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b]` matrix broadcast along axes 0 and 1 of `[a, b, 1]` reads, at `(i, j, u)`, the matrix at `(i, j)`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (i : Fin a) (j : Fin b) (u : Fin 1) :
    broadcastInDim ⟨3, ![a, b, 1]⟩ ![0, 1] h x (ix3 i j u) = x (ix2 i j) := by
  refine broadcastInDim_apply ![0, 1] h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast in place to `[a, b, c]` reads, at `(i, j, k)`, the array at `(i, j, 0)`. -/
theorem broadcastInDim_ab1_abc_apply {a b c : ℕ} (h : (⟨3, ![a, b, 1]⟩ : Shape).BroadcastsInDim ⟨3, ![a, b, c]⟩ ![0, 1, 2])
    (y : (⟨3, ![a, b, 1]⟩ : Shape).Idx → α) (i : Fin a) (j : Fin b) (k : Fin c) :
    broadcastInDim ⟨3, ![a, b, c]⟩ ![0, 1, 2] h y (ix3 i j k) = y (ix3 i j (0 : Fin 1)) := by
  refine broadcastInDim_apply ![0, 1, 2] h y (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector laid along the last axis of a batch of matrices, the reference's two steps: at `(i, j, k)` it reads the
    vector at `k`. -/
theorem broadcastInDim_vec_abc_apply {a b c : ℕ} (hd : (⟨1, ![c]⟩ : Shape).BroadcastsInDim ⟨3, ![1, 1, c]⟩ ![2])
    (h : (⟨3, ![1, 1, c]⟩ : Shape).BroadcastsInDim ⟨3, ![a, b, c]⟩ ![0, 1, 2])
    (x : (⟨1, ![c]⟩ : Shape).Idx → α) (i : Fin a) (j : Fin b) (k : Fin c) :
    broadcastInDim ⟨3, ![a, b, c]⟩ ![0, 1, 2] h (broadcastInDim ⟨3, ![1, 1, c]⟩ ![2] hd x) (ix3 i j k) = x (ix1 k) := by
  rw [broadcastInDim_11c_abc_apply, broadcastInDim_a_11a_apply]

/-- A matrix repeated along a new last axis, the reference's two steps: at `(i, j, k)` it reads the matrix at `(i, j)`. -/
theorem broadcastInDim_mat_abc_apply {a b c : ℕ} (hd : (⟨2, ![a, b]⟩ : Shape).BroadcastsInDim ⟨3, ![a, b, 1]⟩ ![0, 1])
    (h : (⟨3, ![a, b, 1]⟩ : Shape).BroadcastsInDim ⟨3, ![a, b, c]⟩ ![0, 1, 2])
    (x : (⟨2, ![a, b]⟩ : Shape).Idx → α) (i : Fin a) (j : Fin b) (k : Fin c) :
    broadcastInDim ⟨3, ![a, b, c]⟩ ![0, 1, 2] h (broadcastInDim ⟨3, ![a, b, 1]⟩ ![0, 1] hd x) (ix3 i j k) = x (ix2 i j) := by
  rw [broadcastInDim_ab1_abc_apply, broadcastInDim_ab_ab1_apply]

/-! ## The transcendental operations at an index, at the ideal values

A kernel's vector operation and the host's operation of the same name are one function of the element. -/

section Pointwise
variable {s : Shape} {φ : FTy}

theorem exp_apply (a : FVec Ideal s φ) (i : s.Idx) : exp a i = Ideal.exp (a i) := rfl
theorem sqrt_apply (a : FVec Ideal s φ) (i : s.Idx) : sqrt a i = Ideal.sqrt (a i) := rfl
theorem sin_apply (a : FVec Ideal s φ) (i : s.Idx) : sin a i = Ideal.sin (a i) := rfl
theorem cos_apply (a : FVec Ideal s φ) (i : s.Idx) : cos a i = Ideal.cos (a i) := rfl
theorem hostExp_apply (a : FVec Ideal s φ) (i : s.Idx) : Host.exp a i = Ideal.exp (a i) := rfl
theorem hostSqrt_apply (a : FVec Ideal s φ) (i : s.Idx) : Host.sqrt a i = Ideal.sqrt (a i) := rfl
theorem hostSin_apply (a : FVec Ideal s φ) (i : s.Idx) : Host.sin a i = Ideal.sin (a i) := rfl
theorem hostCos_apply (a : FVec Ideal s φ) (i : s.Idx) : Host.cos a i = Ideal.cos (a i) := rfl
theorem hostNegf_apply (a : FVec Ideal s φ) (i : s.Idx) : Host.negf a i = -(a i) := rfl
theorem hostDivf_apply (a b : FVec Ideal s φ) (i : s.Idx) : Host.divf a b i = Ideal.div (a i) (b i) := rfl

end Pointwise

end Idealize.ShloMosaic.ValueIdx

namespace Idealize.ShloMosaic

/-- On extended reals a change of float format is the identity, so a product of operands narrowed to bf16 and accumulated
    into a zero splat is the host's contraction of the operands as they were. -/
theorem matmul_truncf_zero_eq_dotGeneral {sl sr so : Shape} (d : DotDims sl sr so) (prec : Option ContractPrecision)
    (lhs : FVec Ideal sl .f32) (rhs : FVec Ideal sr .f32) (hl : FTy.bf16.bits < FTy.f32.bits) (hr : FTy.bf16.bits < FTy.f32.bits) :
    matmul d prec (truncf .bf16 lhs hl) (truncf .bf16 rhs hr) (constant so .f32 0x00000000#32) = Host.dotGeneral d prec lhs rhs := by
  funext j
  show FloatOps.matmul d prec (truncf .bf16 lhs hl) (truncf .bf16 rhs hr) (constant so .f32 0x00000000#32) j
    = FloatOps.dotGeneral d prec _ lhs rhs j
  rw [Ideal.matmul_constant_zero_apply, Ideal.dotGeneral_apply]
  rfl

end Idealize.ShloMosaic
-- ==== Proof.RefValue.lean ====
/-
  The reference program's run, and its result read at an index.

  The reference is eleven host operations in a line: it builds the mask array from an eight-entry pattern, multiplies
  the weights by it, contracts x with the masked weights over the last axis of each, and adds the bias laid along the
  last axis. Every execution ends with the result array holding, at (b, s, o), the sum over d of
  x[b, s, d] · (w[o, d] · mask[o, d]) plus bias[o], and with the arguments as they were.
-/
import proofs.«180338_j56813827392139_1_alg».proof.Proof.Gen.ReferenceIdeal
import proofs.«180338_j56813827392139_1_alg».proof.Proof.Spec
import proofs.«180338_j56813827392139_1_alg».proof.Proof.LibLayout
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem Idealize.ShloMosaic.StableHlo Cert.ReferenceIdeal Cert.ReferenceIdeal.Gen

/-- The mask array as the program builds it: an eight-entry pattern repeated 512 times along a row, the row repeated
    down 4096 rows. -/
def mask : FVec Ideal S4096x4096 .f32 :=
  broadcastInDim S4096x4096 ![0, 1] bcast_S1x4096_S4096x4096_0_1
    (broadcastInDim S1x4096 ![1] bcast_S4096_S1x4096_1
      (shapeCast S4096
        (broadcastInDim S512x8 ![0, 1] bcast_S1x8_S512x8_0_1
          (shapeCast S1x8 (fun i => FloatOps.ofBits (F := Ideal) .f32 (lit0 (S8.rowMajor i))) shapeCasts_S8_S1x8))
        shapeCasts_S512x8_S4096))

/-! ## The run of the eleven operations -/

section Run

variable {F : FTy → Type} [FloatOps F]

/-- The program's eleven operations, in order. -/
abbrev ops : List (HloOp τ sig (Elt F)) :=
  [ nullary main_cst (fun i => FloatOps.ofBits .f32 (lit0 (S8.rowMajor i))),
    reshape main_cst main_v0 rfl shapeCasts_S8_S1x8,
    unary main_v0 main_v1 (broadcastInDim S512x8 ![0, 1] bcast_S1x8_S512x8_0_1 : (⟨S1x8, .f32⟩ : BufTy).Contents (Elt F) → (⟨S512x8, .f32⟩ : BufTy).Contents (Elt F)),
    reshape main_v1 main_v2 rfl shapeCasts_S512x8_S4096,
    unary main_v2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    binary main_arg1 main_v4 main_v5 (mulf : (⟨S4096x4096, .f32⟩ : BufTy).Contents (Elt F) → (⟨S4096x4096, .f32⟩ : BufTy).Contents (Elt F) → (⟨S4096x4096, .f32⟩ : BufTy).Contents (Elt F)),
    binary main_arg0 main_v5 main_v6 ((fun l r => Host.dotGeneral dot_S8x2048x4096_S4096x4096_S8x2048x4096_2_1_01_0_n_n none l r) : (⟨S8x2048x4096, .f32⟩ : BufTy).Contents (Elt F) → (⟨S4096x4096, .f32⟩ : BufTy).Contents (Elt F) → (⟨S8x2048x4096, .f32⟩ : BufTy).Contents (Elt F)),
    unary main_arg2 main_v7 (broadcastInDim S1x1x4096 ![2] bcast_S4096_S1x1x4096_2 : (⟨S4096, .f32⟩ : BufTy).Contents (Elt F) → (⟨S1x1x4096, .f32⟩ : BufTy).Contents (Elt F)),
    unary main_v7 main_v8 (broadcastInDim S8x2048x4096 ![0, 1, 2] bcast_S1x1x4096_S8x2048x4096_0_1_2 : (⟨S1x1x4096, .f32⟩ : BufTy).Contents (Elt F) → (⟨S8x2048x4096, .f32⟩ : BufTy).Contents (Elt F)),
    binary main_v6 main_v8 main_v9 (addf : (⟨S8x2048x4096, .f32⟩ : BufTy).Contents (Elt F) → (⟨S8x2048x4096, .f32⟩ : BufTy).Contents (Elt F) → (⟨S8x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., unary_bufs_sub .., unary_bufs_sub ..,
    binary_bufs_sub .., binary_bufs_sub .., unary_bufs_sub .., unary_bufs_sub .., binary_bufs_sub ..⟩

end Run

/-- The result array as the operations compose it: the contraction of x with the masked weights, plus the bias laid
    along the last axis. -/
def composed (x : FVec Ideal S8x2048x4096 .f32) (w : FVec Ideal S4096x4096 .f32) (bias : FVec Ideal S4096 .f32) :
    FVec Ideal S8x2048x4096 .f32 :=
  addf (Host.dotGeneral dot_S8x2048x4096_S4096x4096_S8x2048x4096_2_1_01_0_n_n none x (mulf w mask))
    (broadcastInDim S8x2048x4096 ![0, 1, 2] bcast_S1x1x4096_S8x2048x4096_0_1_2
      (broadcastInDim S1x1x4096 ![2] bcast_S4096_S1x1x4096_2 bias))

/-- Every weakly fair execution of the reference ends with its result at the operations' composed term of the
    arguments, the arguments unchanged. -/
theorem run_composed (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
          = composed (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c main_v9).trans (by after_results; rfl),
      (h c main_arg0).trans (by after_results),
      (h c main_arg1).trans (by after_results),
      (h c main_arg2).trans (by after_results)⟩)
    (run_seq scopedRefs_eq scopedSems_eq (defs (F := Ideal)) (main (F := Ideal)) (fun _ => ops) main_eq (fun _ => ops_sub) m ρ)

/-! ## The composed term at an index

The contraction's two operand indices are read coordinate by coordinate: at result index (b, s, o) and contraction
position d the left operand is read at (b, s, d) and the right operand at (o, d). The contraction's index set has one
axis of extent 4096, so its sum is a sum over d < 4096. -/

/-- The contraction's dimension numbers: the last axis of x against the last axis of the masked weights. -/
abbrev D := dot_S8x2048x4096_S4096x4096_S8x2048x4096_2_1_01_0_n_n

theorem lhs_0 (j : S8x2048x4096.Idx) (k : D.contr.Idx) : (D.lhsIdx j k 0 : ℕ) = j 0 := by
  simp [DotDims.lhsIdx, D, dot_S8x2048x4096_S4096x4096_S8x2048x4096_2_1_01_0_n_n]; rfl
theorem lhs_1 (j : S8x2048x4096.Idx) (k : D.contr.Idx) : (D.lhsIdx j k 1 : ℕ) = j 1 := by
  simp [DotDims.lhsIdx, D, dot_S8x2048x4096_S4096x4096_S8x2048x4096_2_1_01_0_n_n]; rfl
theorem lhs_2 (j : S8x2048x4096.Idx) (k : D.contr.Idx) : (D.lhsIdx j k 2 : ℕ) = k ⟨0, by decide⟩ := by
  simp [DotDims.lhsIdx, D, dot_S8x2048x4096_S4096x4096_S8x2048x4096_2_1_01_0_n_n]; rfl
theorem rhs_0 (j : S8x2048x4096.Idx) (k : D.contr.Idx) : (D.rhsIdx j k 0 : ℕ) = j 2 := by
  simp [DotDims.rhsIdx, D, dot_S8x2048x4096_S4096x4096_S8x2048x4096_2_1_01_0_n_n]; rfl
theorem rhs_1 (j : S8x2048x4096.Idx) (k : D.contr.Idx) : (D.rhsIdx j k 1 : ℕ) = k ⟨0, by decide⟩ := by
  simp [DotDims.rhsIdx, D, dot_S8x2048x4096_S4096x4096_S8x2048x4096_2_1_01_0_n_n]; rfl

/-- The contraction's index set is the 4096 positions of the contracted axis. -/
def contrEquiv : D.contr.Idx ≃ Fin 4096 := contrEquiv1 D 4096 rfl rfl

theorem contrEquiv_symm_val (d : Fin 4096) : ((contrEquiv.symm d) ⟨0, by decide⟩ : ℕ) = d.val :=
  contrEquiv1_symm_val D 4096 rfl rfl d

/-- At result index (b, s, o) and contraction position d the left operand is read at (b, s, d). -/
theorem lhsIdx_eq (b : Fin 8) (s : Fin 2048) (o d : Fin 4096) :
    D.lhsIdx (ix3 b s o) (contrEquiv.symm d) = ix3 b s d := by
  funext a
  match a with
  | ⟨0, _⟩ => exact Fin.ext (lhs_0 _ _)
  | ⟨1, _⟩ => exact Fin.ext (lhs_1 _ _)
  | ⟨2, _⟩ => exact Fin.ext ((lhs_2 _ _).trans (contrEquiv_symm_val d))

/-- At result index (b, s, o) and contraction position d the right operand is read at (o, d). -/
theorem rhsIdx_eq (b : Fin 8) (s : Fin 2048) (o d : Fin 4096) :
    D.rhsIdx (ix3 b s o) (contrEquiv.symm d) = ix2 o d := by
  funext a
  match a with
  | ⟨0, _⟩ => exact Fin.ext (rhs_0 _ _)
  | ⟨1, _⟩ => exact Fin.ext ((rhs_1 _ _).trans (contrEquiv_symm_val d))

/-- The three argument arrays' types. -/
abbrev XVec := FVec Ideal S8x2048x4096 .f32
abbrev WVec := FVec Ideal S4096x4096 .f32
abbrev BVec := FVec Ideal S4096 .f32

/-- The contraction at (b, s, o): the sum over d of the left operand at (b, s, d) times the right operand at (o, d). -/
theorem dot_apply (x : XVec) (v : WVec) (b : Fin 8) (s : Fin 2048) (o : Fin 4096) :
    Host.dotGeneral D none x v (ix3 b s o) = ∑ d : Fin 4096, x (ix3 b s d) * v (ix2 o d) := by
  simp only [Host.dotGeneral]
  rw [Ideal.dotGeneral_apply, ← Equiv.sum_comp contrEquiv.symm]
  refine Finset.sum_congr rfl fun d _ => ?_
  rw [lhsIdx_eq, rhsIdx_eq]

/-- The composed term is the masked linear map: at (b, s, o), the sum over d of x[b, s, d] · (w[o, d] · mask[o, d]),
    plus bias[o]. -/
theorem composed_eq (x : XVec) (w : WVec) (bias : BVec) : composed x w bias = Cert.Spec.lin x w mask bias := by
  funext i
  obtain ⟨b, s, o, rfl⟩ : ∃ (b : Fin 8) (s : Fin 2048) (o : Fin 4096), i = ix3 b s o := ⟨i 0, i 1, i 2, eq_ix3 i⟩
  rw [Cert.Spec.lin_apply]
  unfold Cert.Spec.linAt composed
  rw [addf_apply, dot_apply, broadcastInDim_vec_abc_apply]
  refine congrArg (· + bias (ix1 o)) (Finset.sum_congr rfl fun d _ => ?_)
  rw [mulf_apply]

/-- Every weakly fair execution of the reference ends with its result at the masked linear map of the arguments and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
          = Cert.Spec.lin (m ((c.tc : Thread nD τ).loc main_arg0)) (m ((c.tc : Thread nD τ).loc main_arg1)) mask
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (composed_eq _ _ _), (h c).2⟩) (run_composed m ρ)

end Cert.ReferenceIdeal.RefValue

end
-- ==== Proof.lean ====
/-
  A masked linear layer: the tiled kernel against the one-line reference, on extended reals.

  Both programs compute out[b, s, o] = Σ_d x[b, s, d] · (w[o, d] · mask[o, d]) + bias[o] for x of shape
  8 × 2048 × 4096, w of shape 4096 × 4096 and bias of length 4096, the mask being the same array in both: each builds
  it by the same operations from the same eight-entry pattern, and nothing below depends on what it holds.

  The reference contracts x with the masked weights in one operation and adds the bias. The kernel flattens x to 16384
  rows, transposes the masked weights, and tiles the product into 1024 × 1024 output blocks, each accumulated over
  eight steps of 512 positions in a scratch block that is zeroed at the first step, with the bias row added as the block
  is written out at the last. Narrowing an operand to a shorter float format is the identity on extended reals, and a
  block product into a zero block is the plain sum of products. So the kernel's entry is
  ((0 + Σ over step 0) + … + Σ over step 7) + bias[o], the eight partial sums running over consecutive ranges of 512
  positions: the same terms as the reference's one sum over 4096, regrouped. Addition of extended reals is commutative
  and associative, so regrouping needs no finiteness, and the precondition is never opened.

  The kernel's result is read off its frame run (what each case of the body leaves, the accumulator by induction over
  the steps of a reduction, the blocks assembled into the array, the closing reshape); the reference's from its run as
  a list of host operations. The two frames of the kernel programs are their generated frame certificates; the
  reference's frame is its run with the result dropped; the idealization rewrote nothing.
-/
import proofs.«180338_j56813827392139_1_alg».proof.Defs
import proofs.«180338_j56813827392139_1_alg».proof.Proof.Gen.Kernel
import proofs.«180338_j56813827392139_1_alg».proof.Proof.Gen.Kernel.Frame
import proofs.«180338_j56813827392139_1_alg».proof.Proof.Gen.KernelIdeal
import proofs.«180338_j56813827392139_1_alg».proof.Proof.Gen.KernelIdeal.Frame
import proofs.«180338_j56813827392139_1_alg».proof.Proof.Gen.ReferenceIdeal
import proofs.«180338_j56813827392139_1_alg».proof.Proof.Gen.Pre_finite_inputs
import proofs.«180338_j56813827392139_1_alg».proof.Proof.KRun
import proofs.«180338_j56813827392139_1_alg».proof.Proof.RefValue
import Idealize.ShloMosaic.Adequacy
import Idealize.ShloMosaic.Init

noncomputable section

namespace Cert.Proof

open Idealize.ShloMosaic Idealize.SL.Sem

/-- The two programs build the same mask array: the same operations on the same pattern. -/
theorem mask_eq : Cert.KernelIdeal.KValue.mask = Cert.ReferenceIdeal.RefValue.mask := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the arguments both programs end with the masked linear map of those arguments. -/
theorem algebraic : Cert.algebraic_KernelIdeal_ReferenceIdeal := by
  intro m ρ m' ρ' _ hagree
  refine ⟨fun c => Cert.Spec.lin (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) Cert.KernelIdeal.KValue.mask
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2, mask_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
